-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S256x256 : Shape := ⟨2, ![256, 256]⟩
abbrev S256 : Shape := ⟨1, ![256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : IVec S32x8192 32) (main_arg1 : FVec F S256x256 .f32) (main_arg2 : FVec F S256 .f32) : IVec S_ 1 :=
  let main_v0 : FVec F S256x256 .f32 := Host.absf main_arg1
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S32x8192 : Shape := ⟨2, ![32, 8192]⟩
abbrev S256x256 : Shape := ⟨2, ![256, 256]⟩
abbrev S256 : Shape := ⟨1, ![256]⟩
abbrev S1x1x256 : Shape := ⟨3, ![1, 1, 256]⟩
abbrev S32x8192x256 : Shape := ⟨3, ![32, 8192, 256]⟩
abbrev S32x128 : Shape := ⟨2, ![32, 128]⟩
abbrev S32x128x256 : Shape := ⟨3, ![32, 128, 256]⟩
abbrev S32x128x1 : Shape := ⟨3, ![32, 128, 1]⟩
abbrev S4096x256 : Shape := ⟨2, ![4096, 256]⟩

abbrev nBuf : Space → Nat
  | .hbm => 7
  | .vmem => 6
  | .smem => 0
  | _ => 0

abbrev bufTy : (tb : Table) → Fin (tcTables nBuf tb) → BufTy
  | .hbm, ⟨0, _⟩ => ⟨S32x8192, .i32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256x256, .bf16⟩
  | .hbm, ⟨5, _⟩ => ⟨S1x1x256, .f32⟩
  | .hbm, ⟨6, _⟩ => ⟨S32x8192x256, .f32⟩
  | .local _ .vmem, ⟨0, _⟩ => ⟨S32x128, .i32⟩
  | .local _ .vmem, ⟨1, _⟩ => ⟨S32x128, .i32⟩
  | .local _ .vmem, ⟨2, _⟩ => ⟨S256x256, .bf16⟩
  | .local _ .vmem, ⟨3, _⟩ => ⟨S1x1x256, .f32⟩
  | .local _ .vmem, ⟨4, _⟩ => ⟨S32x128x256, .f32⟩
  | .local _ .vmem, ⟨5, _⟩ => ⟨S32x128x256, .f32⟩
  | _, _ => ⟨S32x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x1x256 : S256.ShapeCasts S1x1x256
  inb_S32x128_S32x128_0_0 : ∀ a, (![0, 0] : Fin 2 → Nat) a + S32x128.size a ≤ S32x128.size a
  h_S32x128 : 0 < S32x128.numel
  iota_S32x128x256_d2_w32 : S32x128x256.Iotas .tc 32 [2]
  shapeCasts_S32x128_S32x128x1 : S32x128.ShapeCasts S32x128x1
  broadcasts_S32x128x1_S32x128x256 : S32x128x1.Broadcasts S32x128x256
  natLt_1_32 : 1 < 32
  shapeCasts_S32x128x256_S4096x256 : S32x128x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S32x128x256 : S4096x256.ShapeCasts S32x128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S32x128x256 : S1x1x256.Broadcasts S32x128x256
  inb_S32x128x256_S32x128x256_0_0_0 : ∀ a, (![0, 0, 0] : Fin 3 → Nat) a + S32x128x256.size a ≤ S32x128x256.size a
  h_S32x128x256 : 0 < S32x128x256.numel
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x8192.size a
  hwx0_0 : ∀ i : grid0.Coords, EltTy.bits .i32 = 32 ∨ (Rect.block (s := S32x8192) S32x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S1x1x256.size a
  hwx0_2 : ∀ i : grid0.Coords, EltTy.bits .f32 = 32 ∨ (Rect.block (s := S1x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x256.size a ≤ S32x8192x256.size a
  hwx0_3 : ∀ i : grid0.Coords, EltTy.bits .f32 = 32 ∨ (Rect.block (s := S32x8192x256) S32x128x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192 : Shape := ⟨2, ![32, 8192]⟩
abbrev S256x256 : Shape := ⟨2, ![256, 256]⟩
abbrev S256 : Shape := ⟨1, ![256]⟩
abbrev S32x8192x1 : Shape := ⟨3, ![32, 8192, 1]⟩
abbrev S1x1x256 : Shape := ⟨3, ![1, 1, 256]⟩
abbrev S32x8192x256 : Shape := ⟨3, ![32, 8192, 256]⟩

abbrev nBuf : Space → Nat
  | .hbm => 13
  | .vmem => 0
  | .smem => 0
  | _ => 0

abbrev bufTy : (tb : Table) → Fin (tcTables nBuf tb) → BufTy
  | .hbm, ⟨0, _⟩ => ⟨S32x8192, .i32⟩
  | .hbm, ⟨1, _⟩ => ⟨S256x256, .f32⟩
  | .hbm, ⟨2, _⟩ => ⟨S256, .f32⟩
  | .hbm, ⟨3, _⟩ => ⟨S32x8192x1, .i32⟩
  | .hbm, ⟨4, _⟩ => ⟨S1x1x256, .i32⟩
  | .hbm, ⟨5, _⟩ => ⟨S32x8192x256, .i32⟩
  | .hbm, ⟨6, _⟩ => ⟨S32x8192x256, .i32⟩
  | .hbm, ⟨7, _⟩ => ⟨S32x8192x256, .i1⟩
  | .hbm, ⟨8, _⟩ => ⟨S32x8192x256, .f32⟩
  | .hbm, ⟨9, _⟩ => ⟨S32x8192x256, .f32⟩
  | .hbm, ⟨10, _⟩ => ⟨S1x1x256, .f32⟩
  | .hbm, ⟨11, _⟩ => ⟨S32x8192x256, .f32⟩
  | .hbm, ⟨12, _⟩ => ⟨S32x8192x256, .f32⟩
  | _, _ => ⟨S32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S32x8192_S32x8192x1_0_1 : S32x8192.BroadcastsInDim S32x8192x1 (![0, 1] : Fin 2 → Fin S32x8192x1.rank)
  bcast_S32x8192x1_S32x8192x256_0_1_2 : S32x8192x1.BroadcastsInDim S32x8192x256 (![0, 1, 2] : Fin 3 → Fin S32x8192x256.rank)
  bcast_S1x1x256_S32x8192x256_0_1_2 : S1x1x256.BroadcastsInDim S32x8192x256 (![0, 1, 2] : Fin 3 → Fin S32x8192x256.rank)
  bcast_S256_S1x1x256_2 : S256.BroadcastsInDim S1x1x256 (![2] : Fin 1 → Fin S1x1x256.rank)
  dot_S32x8192x256_S256x256_S32x8192x256_2_1_01_0_n_n_wf : DotDims.WF S32x8192x256 S256x256 S32x8192x256 [2] [1] [0, 1] [0] [] []

variable [Facts₀]

def dot_S32x8192x256_S256x256_S32x8192x256_2_1_01_0_n_n : DotDims S32x8192x256 S256x256 S32x8192x256 where
  lhsContracting := [2]
  rhsContracting := [1]
  lhsNonContracting := [0, 1]
  rhsNonContracting := [0]
  lhsBatch := []
  rhsBatch := []
  wf := dot_S32x8192x256_S256x256_S32x8192x256_2_1_01_0_n_n_wf

class Facts : Prop extends Facts₀ where

variable [Facts]
-- ==== Proof.OneHotLinear.lean ====
/-
  The function both programs compute: a linear layer applied to the one-hot rows of a token array.

  For a token word `x`, `hot x v` is entry `v` of its one-hot row over a vocabulary of 256: the extended real 1 when
  the 32-bit word `x` is the word `v`, and 0 otherwise (a word outside 0 … 255 has the zero row). The layer is
      embed x W bias (b, s, o) = Σ_v hot (x (b, s)) v · W (o, v) + bias o,
  the sum over the 256 vocabulary entries in their order, each product one-hot entry first, the bias added last. Both
  programs reach exactly this expression, so no law of the extended reals beyond the meaning of the operations is
  needed, and the finiteness of `W` and `bias` is never used.
-/
import Idealize.ShloMosaic.PureOps.Ideal
import Idealize.ShloMosaic.Lib.ValueIdx

noncomputable section

namespace Cert.OneHotLinear

open Idealize.ShloMosaic Idealize.ShloMosaic.ValueIdx

/-- The token array: 32 sequences of 8192 tokens. -/
abbrev STok : Shape := ⟨2, ![32, 8192]⟩
/-- The weight, `[out, in]`, and the bias. -/
abbrev SWeight : Shape := ⟨2, ![256, 256]⟩
abbrev SBias : Shape := ⟨1, ![256]⟩
/-- The result: one row of 256 outputs per token. -/
abbrev SOut : Shape := ⟨3, ![32, 8192, 256]⟩

/-- Entry `v` of the one-hot row of the token word `x`: the comparison bit of `x` with the word `v`, read unsigned. -/
def hot (x : BitVec 32) (v : Fin 256) : EReal :=
  FloatOps.uitofp (F := Ideal) .f32 (IntOp.cmpi .eq x (BitVec.ofNat 32 v.val))

/-- The one-hot row of token `(b, s)` times the weight's row `o`, plus the bias at `o`. -/
def embed (x : IVec STok 32) (W : FVec Ideal SWeight .f32) (bias : FVec Ideal SBias .f32) : FVec Ideal SOut .f32 :=
  fun i => (∑ v : Fin 256, hot (x (ix2 (i 0) (i 1))) v * W (ix2 (i 2) v)) + bias (ix1 (i 2))

theorem embed_apply (x : IVec STok 32) (W : FVec Ideal SWeight .f32) (bias : FVec Ideal SBias .f32)
    (b : Fin 32) (s : Fin 8192) (o : Fin 256) :
    embed x W bias (ix3 b s o) = (∑ v : Fin 256, hot (x (ix2 b s)) v * W (ix2 o v)) + bias (ix1 o) := rfl

end Cert.OneHotLinear

end
-- ==== Proof.KernelBody.lean ====
/-
  What the kernel body stores, read at an index of the output block.

  At a grid point the body holds a block `v0` of 32 × 128 token words, the whole transposed weight `v9` (entry
  `(v, o)` is `W[o, v]`) and the bias as a 1 × 1 × 256 array `v13`. It compares the tokens, laid along a new last
  axis, with an iota along that axis, widens the comparison bit to a word and converts the word signed — which on
  one bit is the bit read unsigned, so the entry is `hot` —, lays the 32 × 128 one-hot rows out as the 4096 rows of a
  matrix (row `128 p + q` is token `(p, q)`), multiplies by the weight into a zero accumulator, lays the 4096 result
  rows back out as 32 × 128 and adds the bias along the last axis. So at `(p, q, o)` it stores
      Σ_v hot (v0 (p, q)) v · v9 (v, o) + v13 (0, 0, o).
-/
import proofs.«150995_j57183194579644_1_alg».proof.Proof.Gen.KernelIdeal.Skeleton
import proofs.«150995_j57183194579644_1_alg».proof.Proof.OneHotLinear
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Body

open Cert.KernelIdeal Cert.KernelIdeal.Gen Idealize.ShloMosaic Idealize.ShloMosaic.ValueIdx Cert.OneHotLinear

/-! ## The matrix product: rows of the left operand against columns of the right -/

/-- Left operand, row axis: the output's row. -/
theorem lhs_dot_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- Left operand, column axis: the contracted index. -/
theorem lhs_dot_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- Right operand, row axis: the contracted index. -/
theorem rhs_dot_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- Right operand, column axis: the output's column. -/
theorem rhs_dot_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into a zero accumulator at `(row, o)` is the sum over `k` of `l (row, k) · r (k, o)`. -/
theorem matmul_zero_apply (l : FVec Ideal S4096x256 .bf16) (r : FVec Ideal S256x256 .bf16) (row : Fin 4096) (o : Fin 256) :
    matmul dot_S4096x256_S256x256_S4096x256_1_0_0_1_n_n none l r (constant (F := Ideal) S4096x256 .f32 0x00000000#32) (ix2 row o)
      = ∑ k : Fin 256, l (ix2 row k) * r (ix2 k o) := by
  show FloatOps.matmul dot_S4096x256_S256x256_S4096x256_1_0_0_1_n_n none l r (constant (F := Ideal) S4096x256 .f32 0x00000000#32) (ix2 row o) = _
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 row o) ((ValueIdx.contrEquiv1 dot_S4096x256_S256x256_S4096x256_1_0_0_1_n_n 256 rfl rfl).symm k) = ix2 row k := funext fun a => Fin.ext (by
    match a with
    | ⟨0, _⟩ => exact lhs_dot_0 _ _
    | ⟨1, _⟩ => exact (lhs_dot_1 _ _).trans hk)
  have er : dot_S4096x256_S256x256_S4096x256_1_0_0_1_n_n.rhsIdx (ix2 row o) ((ValueIdx.contrEquiv1 dot_S4096x256_S256x256_S4096x256_1_0_0_1_n_n 256 rfl rfl).symm k) = ix2 k o := funext fun a => Fin.ext (by
    match a with
    | ⟨0, _⟩ => exact (rhs_dot_0 _ _).trans hk
    | ⟨1, _⟩ => exact rhs_dot_1 _ _)
  rw [el, er]

/-! ## The one-hot rows -/

/-- The tokens laid along a new last axis, compared with the iota along it, the bit widened and converted: at
    `(p, q, k)` the one-hot entry `k` of token `(p, q)`. -/
theorem onehot_apply (v0 : IVec S32x128 32) (p : Fin 32) (q : Fin 128) (k : Fin 256) :
    (sitofp .f32 (extui 32 (cmpi .eq (broadcastTo S32x128x256 (shapeCast S32x128x1 v0 shapeCasts_S32x128_S32x128x1) broadcasts_S32x128x1_S32x128x256)
        (iota .tc S32x128x256 32 [2] iota_S32x128x256_d2_w32)) natLt_1_32) : FVec Ideal S32x128x256 .f32) (ix3 p q k)
      = hot (v0 (ix2 p q)) k := by
  rw [sitofp_extui_eq_uitofp]
  show FloatOps.uitofp (F := Ideal) .f32 (IntOp.cmpi .eq
      (broadcastTo S32x128x256 (shapeCast S32x128x1 v0 shapeCasts_S32x128_S32x128x1) broadcasts_S32x128x1_S32x128x256 (ix3 p q k))
      (iota .tc S32x128x256 32 [2] iota_S32x128x256_d2_w32 (ix3 p q k))) = _
  rw [broadcastTo_apply _ broadcasts_S32x128x1_S32x128x256 (ix3 p q k) (ix3 p q (0 : Fin 1)) (fun a => by
        match a with
        | ⟨0, _⟩ => rfl
        | ⟨1, _⟩ => rfl
        | ⟨2, _⟩ => rfl),
    shapeCast_apply v0 shapeCasts_S32x128_S32x128x1 (ix3 p q (0 : Fin 1)) (ix2 p q) (by
        rw [Shape.rowMajor_val_two, Shape.rowMajor_val_three]
        show p.val * 128 + q.val = (p.val * 128 + q.val) * 1 + 0
        omega),
    iota_single_apply]
  rfl

/-- Row `128 p + q` of the one-hot matrix is the one-hot row of token `(p, q)`: the cast to 4096 rows keeps the
    row-major position, and the change of float format is the identity. -/
theorem rows_apply (X : FVec Ideal S32x128x256 .f32) (p : Fin 32) (q : Fin 128) (k : Fin 256) (row : Fin 4096)
    (hrow : row.val = p.val * 128 + q.val) :
    shapeCast S4096x256 (truncf .bf16 X bitsLt_bf16_f32) shapeCasts_S32x128x256_S4096x256 (ix2 row k) = X (ix3 p q k) := by
  rw [shapeCast_apply _ shapeCasts_S32x128x256_S4096x256 (ix2 row k) (ix3 p q k) (by
        rw [Shape.rowMajor_val_two, Shape.rowMajor_val_three]
        show (p.val * 128 + q.val) * 256 + k.val = row.val * 256 + k.val
        rw [hrow])]
  rfl

/-- The 4096 result rows laid back out: `(p, q, o)` is row `128 p + q`, column `o`. -/
theorem unrows_apply (Y : FVec Ideal S4096x256 .f32) (p : Fin 32) (q : Fin 128) (o : Fin 256) (row : Fin 4096)
    (hrow : row.val = p.val * 128 + q.val) :
    shapeCast S32x128x256 Y shapeCasts_S4096x256_S32x128x256 (ix3 p q o) = Y (ix2 row o) := by
  rw [shapeCast_apply _ shapeCasts_S4096x256_S32x128x256 (ix3 p q o) (ix2 row o) (by
        rw [Shape.rowMajor_val_two, Shape.rowMajor_val_three]
        show row.val * 256 + o.val = (p.val * 128 + q.val) * 256 + o.val
        rw [hrow])]

/-- The bias laid along every token's row. -/
theorem bias_apply (v13 : FVec Ideal S1x1x256 .f32) (p : Fin 32) (q : Fin 128) (o : Fin 256) :
    broadcastTo S32x128x256 (shapeCast S1x1x256 v13 shapeCasts_S1x1x256_S1x1x256) broadcasts_S1x1x256_S32x128x256 (ix3 p q o)
      = v13 (ix3 (0 : Fin 1) (0 : Fin 1) o) := by
  rw [shapeCast_self, broadcastTo_apply v13 broadcasts_S1x1x256_S32x128x256 (ix3 p q o) (ix3 (0 : Fin 1) (0 : Fin 1) o) (fun a => by
        match a with
        | ⟨0, _⟩ => rfl
        | ⟨1, _⟩ => rfl
        | ⟨2, _⟩ => rfl)]

/-! ## The stored value -/

/-- What the body stores at `(p, q, o)`: the one-hot row of token `(p, q)` against column `o` of the transposed
    weight, plus the bias at `o`. -/
theorem pay_apply (v0 : IVec S32x128 32) (v9 : FVec Ideal S256x256 .bf16) (v13 : FVec Ideal S1x1x256 .f32)
    (p : Fin 32) (q : Fin 128) (o : Fin 256) :
    k0_pay1 (F := Ideal) v0 v9 v13 (ix3 p q o)
      = (∑ v : Fin 256, hot (v0 (ix2 p q)) v * v9 (ix2 v o)) + v13 (ix3 (0 : Fin 1) (0 : Fin 1) o) := by
  have hlt : p.val * 128 + q.val < 4096 := by have := p.isLt; have := q.isLt; omega
  unfold k0_pay1
  dsimp only
  rw [addf_apply, bias_apply, unrows_apply _ p q o ⟨p.val * 128 + q.val, hlt⟩ rfl, matmul_zero_apply, shapeCast_self]
  congr 1
  refine Finset.sum_congr rfl fun k _ => ?_
  rw [rows_apply _ p q k ⟨p.val * 128 + q.val, hlt⟩ rfl, onehot_apply]

end Cert.KernelIdeal.Body

end
-- ==== Proof.KernelArray.lean ====
/-
  The kernel's result array after the run is `embed` of the three arguments.

  The grid has 64 points; point `t` works on tokens `128 t … 128 t + 127` of every sequence. Its token block is
  columns `128 t …` of the token array, its weight block is the whole transposed weight (written by the host
  before the region: entry `(v, o)` is `W (o, v)`, the change of float format the identity), its bias block the
  whole bias laid out 1 × 1 × 256, and the block it writes back is rows `128 t …` (second axis) of the result. With
  the stored value read at an index this gives: point `t` writes back block `t` of `embed x W bias`. The 64
  blocks cover the result array (token `s` lies in the block of point `s / 128`), so the array ends at `embed`.
-/
import proofs.«150995_j57183194579644_1_alg».proof.Proof.Gen.KernelIdeal.Value
import proofs.«150995_j57183194579644_1_alg».proof.Proof.KernelBody
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Cert.OneHotLinear Cert.KernelIdeal.Body
open Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the host writes before the region -/

/-- The weight window's array: the weight transposed (the change of float format is the identity). -/
theorem wt_eq (c : Dev nD) : (V m c main_v1 : FVec Ideal S256x256 .bf16)
    = truncf (F := Ideal) .bf16 (transpose S256x256 [1, 0] (m ((c : Thread nD τ).loc main_arg1) : FVec Ideal S256x256 .f32) transposes_S256x256_S256x256_1_0) bitsLt_bf16_f32 := by
  dsimp only [Gen.V, Gen.hostOps0]
  after_results <;> rfl

/-- The bias window's array: the bias laid out 1 × 1 × 256. -/
theorem bias_eq (c : Dev nD) : (V m c main_v2 : FVec Ideal S1x1x256 .f32)
    = shapeCast S1x1x256 (m ((c : Thread nD τ).loc main_arg2) : FVec Ideal S256 .f32) shapeCasts_S256_S1x1x256 := by
  dsimp only [Gen.V, Gen.hostOps0]
  after_results <;> rfl

/-- Entry `(v, o)` of the transposed weight is `W (o, v)`. -/
theorem wt_apply (c : Dev nD) (v o : Fin 256) :
    (V m c main_v1 : FVec Ideal S256x256 .bf16) (ix2 v o) = (m ((c : Thread nD τ).loc main_arg1) : FVec Ideal S256x256 .f32) (ix2 o v) := by
  rw [wt_eq]
  show transpose S256x256 [1, 0] (m ((c : Thread nD τ).loc main_arg1) : FVec Ideal S256x256 .f32) transposes_S256x256_S256x256_1_0 (ix2 v o) = _
  exact transpose_apply [1, 0] _ transposes_S256x256_S256x256_1_0 (ix2 v o) (ix2 o v) (fun b => by
    match b with
    | ⟨0, _⟩ => rfl
    | ⟨1, _⟩ => rfl)

/-- Entry `(0, 0, o)` of the laid-out bias is `bias o`. -/
theorem bias_apply' (c : Dev nD) (o : Fin 256) :
    (V m c main_v2 : FVec Ideal S1x1x256 .f32) (ix3 (0 : Fin 1) (0 : Fin 1) o) = (m ((c : Thread nD τ).loc main_arg2) : FVec Ideal S256 .f32) (ix1 o) := by
  rw [bias_eq]
  exact shapeCast_apply _ shapeCasts_S256_S1x1x256 (ix3 (0 : Fin 1) (0 : Fin 1) o) (ix1 o) (by
    rw [Shape.rowMajor_val_one, Shape.rowMajor_val_three]
    show o.val = (0 * 1 + 0) * 256 + o.val
    omega)

/-! ## The index maps over the grid -/

/-- Point `t` takes token block `(0, t)`, the one weight block, the one bias block, and writes result block `(0, t, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-! ## The blocks at a point -/

/-- The token block at point `t`: entry `(p, q)` is token `128 t + q` of sequence `p`. -/
theorem tok_blk (c : Dev nD) (t : Fin cfg0.N) (p : Fin 32) (q : Fin 128) (s : Fin 8192) (hs : s.val = t.val * 128 + q.val) :
    (iblk m c 0 t : IVec S32x128 32) (ix2 p q) = (m ((c : Thread nD τ).loc main_arg0) : IVec S32x8192 32) (ix2 p s) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 32 + 1 * p.val = p.val; omega
  | ⟨1, _⟩ => show win0_0.index t (1 : Fin 2) * 128 + 1 * q.val = s.val; omega

/-- The weight block at any point is the whole transposed weight. -/
theorem wt_blk (c : Dev nD) (t : Fin cfg0.N) (v o : Fin 256) :
    (iblk m c 1 t : FVec Ideal S256x256 .bf16) (ix2 v o) = (m ((c : Thread nD τ).loc main_arg1) : FVec Ideal S256x256 .f32) (ix2 o v) := by
  obtain ⟨-, -, e0, e1, -⟩ := idx_facts t
  rw [← wt_apply m c v o]
  unfold iblk
  rw [View.read_apply]
  show V m c main_v1 _ = V m c main_v1 _
  congr 1
  funext a
  apply Fin.ext
  match a with
  | ⟨0, _⟩ => show win0_1.index t (0 : Fin 2) * 256 + 1 * v.val = v.val; omega
  | ⟨1, _⟩ => show win0_1.index t (1 : Fin 2) * 256 + 1 * o.val = o.val; omega

/-- The bias block at any point is the whole laid-out bias. -/
theorem bias_blk (c : Dev nD) (t : Fin cfg0.N) (o : Fin 256) :
    (iblk m c 2 t : FVec Ideal S1x1x256 .f32) (ix3 (0 : Fin 1) (0 : Fin 1) o) = (m ((c : Thread nD τ).loc main_arg2) : FVec Ideal S256 .f32) (ix1 o) := by
  obtain ⟨-, -, -, -, e0, e1, e2, -⟩ := idx_facts t
  rw [← bias_apply' m c o]
  unfold iblk
  rw [View.read_apply]
  show V m c main_v2 _ = V m c main_v2 _
  congr 1
  funext a
  apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 256 + 1 * o.val = o.val; omega

/-! ## What a point writes back -/

/-- Point `t` writes back block `t` of `embed` of the arguments. -/
theorem flushed_eq (c : Dev nD) (t : Fin cfg0.N) :
    (dats m 0 c).flushed 3 t = ((cfg0.win 3).blk t).view.read (Elt Ideal)
      (embed (m ((c : Thread nD τ).loc main_arg0)) (m ((c : Thread nD τ).loc main_arg1)) (m ((c : Thread nD τ).loc main_arg2))) := by
  rw [Cert.KernelIdeal.Value.flushed3]
  unfold out0_3
  rw [View.canon_unit_zero hz3]
  simp only [View.ld_unit_zero (S := S32x128) hz2, View.ld_unit_zero (S := S256x256) hz2, View.ld_unit_zero (S := S1x1x256) hz3]
  obtain ⟨-, -, -, -, -, -, -, e0, e1, e2⟩ := idx_facts t
  funext j
  obtain ⟨p, q, o, rfl⟩ : ∃ (p : Fin 32) (q : Fin 128) (o : Fin 256), j = ix3 p q o := ⟨j 0, j 1, j 2, eq_ix3 j⟩
  have hs : t.val * 128 + q.val < 8192 := by
    have := t.isLt; have hN : cfg0.N = 64 := N_0; have := q.isLt; omega
  have hemb : ((cfg0.win 3).blk t).view.emb (ix3 p q o) = (ix3 p (⟨t.val * 128 + q.val, hs⟩ : Fin 8192) o : S32x8192x256.Idx) := by
    funext a
    apply Fin.ext
    match a with
    | ⟨0, _⟩ => show win0_3.index t (0 : Fin 3) * 32 + 1 * p.val = p.val; omega
    | ⟨1, _⟩ => show win0_3.index t (1 : Fin 3) * 128 + 1 * q.val = t.val * 128 + q.val; omega
    | ⟨2, _⟩ => show win0_3.index t (2 : Fin 3) * 256 + 1 * o.val = o.val; omega
  show k0_pay1 (F := Ideal) (iblk m c 0 t) (iblk m c 1 t) (iblk m c 2 t) (ix3 p q o)
    = embed _ _ _ (((cfg0.win 3).blk t).view.emb (ix3 p q o))
  rw [hemb, embed_apply]
  refine (pay_apply (iblk m c 0 t) (iblk m c 1 t) (iblk m c 2 t) p q o).trans ?_
  rw [tok_blk m c t p q ⟨t.val * 128 + q.val, hs⟩ rfl, bias_blk m c t o]
  congr 1
  refine Finset.sum_congr rfl fun v _ => ?_
  rw [wt_blk m c t v o]

/-! ## The blocks cover the array -/

/-- An index of the result array is in point `t`'s block iff each coordinate is in the block's range on its axis. -/
theorem mem_blk (t : Fin cfg0.N) (i : S32x8192x256.Idx) :
    i ∈ ((cfg0.win 3).blk t).view.set ↔ ∀ a : Fin 3, win0_3.index t a * S32x128x256.size a ≤ (i a).val ∧ (i a).val < win0_3.index t a * S32x128x256.size a + S32x128x256.size a := by
  show i ∈ ((View.whole main_v3).slice (win0_3.rect t)).set ↔ _
  rw [View.set_slice_whole, Rect.mem_set_unit]
  exact Iff.rfl

/-- Every index lies in the block of the point its token falls in. -/
theorem cover (i : S32x8192x256.Idx) : ∃ t : Fin cfg0.N, (cfg0.win 3).flush t = true ∧ i ∈ ((cfg0.win 3).blk t).view.set := by
  have hi0 : (i 0).val < 32 := (i 0).isLt
  have hi1 : (i 1).val < 8192 := (i 1).isLt
  have hi2 : (i 2).val < 256 := (i 2).isLt
  have hN : cfg0.N = 64 := N_0
  obtain ⟨t, ht⟩ : ∃ t : Fin cfg0.N, t.val = (i 1).val / 128 := ⟨⟨(i 1).val / 128, by omega⟩, rfl⟩
  refine ⟨t, flush0_3 t, ?_⟩
  obtain ⟨-, -, -, -, -, -, -, e0, e1, e2⟩ := idx_facts t
  rw [mem_blk]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 128 ≤ (i 1).val ∧ (i 1).val < win0_3.index t (1 : Fin 3) * 128 + 128; omega
  | ⟨2, _⟩ => show win0_3.index t (2 : Fin 3) * 256 ≤ (i 2).val ∧ (i 2).val < win0_3.index t (2 : Fin 3) * 256 + 256; omega

/-! ## The array and the run -/

/-- The result array after the run is `embed` of the arguments. -/
theorem final (c : Dev nD) : (dats m 0 c).arrAt 3 cfg0.N
    = embed (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel program terminates with the result array at `embed` of the arguments
    and the arguments unchanged. -/
theorem run : θ_run defs (onTc (τ := τ) (main (F := Ideal))) ⟨m, fun _ => 0, ρ⟩ fun r => ∀ c : Dev nD,
      r.2.mem ((c : Thread nD τ).loc main_v3) = embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Array

end
-- ==== Proof.ReferenceEmbed.lean ====
/-
  The reference program's result is `embed` of its three arguments.

  The reference builds the one-hot array by comparing the token array, broadcast along a new last axis, with an iota
  along that axis, converts the comparison bit to a float unsigned, contracts the one-hot array's last axis with the
  weight's second axis (`W[o, v]`), and adds the bias broadcast along the last axis. Read at an index `(b, s, o)` that
  is `Σ_v hot (x (b, s)) v · W (o, v) + bias o`: the generated read-at-an-index lemmas give each stage at an index, and
  what remains is that the composed index functions are the coordinates `(b, s)`, `(o, v)` and `o`.
-/
import proofs.«150995_j57183194579644_1_alg».proof.Proof.Gen.ReferenceIdeal.Read
import proofs.«150995_j57183194579644_1_alg».proof.Proof.OneHotLinear

noncomputable section

namespace Cert.ReferenceIdeal.RefEmbed

open Cert.ReferenceIdeal Cert.ReferenceIdeal.Read Idealize.ShloMosaic Idealize.ShloMosaic.ValueIdx Cert.OneHotLinear

/-- The last stage of the reference, as a function of the three arguments, is `embed`. -/
theorem val_eq_embed (x0 : (⟨S32x8192, .i32⟩ : BufTy).Contents (Elt Ideal)) (x1 : (⟨S256x256, .f32⟩ : BufTy).Contents (Elt Ideal))
    (x2 : (⟨S256, .f32⟩ : BufTy).Contents (Elt Ideal)) :
    val_main_v4 (F := Ideal) x0 x1 x2 = embed x0 x1 x2 := by
  funext i
  -- the token read by the one-hot stage at `(b, s, v)` is token `(b, s)`
  have etok : ∀ k : Fin 256, idx_main_call0_v0 (idx_main_call0_v2 (lidx_main_v1 i k)) = ix2 (i 0) (i 1) := fun k =>
    funext fun a => by match a with | ⟨0, _⟩ => rfl | ⟨1, _⟩ => rfl
  -- the weight entry the contraction meets at `v` is `W (o, v)`
  have ew : ∀ k : Fin 256, ridx_main_v1 i k = ix2 (i 2) k := fun k =>
    funext fun a => by match a with | ⟨0, _⟩ => rfl | ⟨1, _⟩ => rfl
  -- the bias entry is `bias o`
  have eb : idx_main_v2 (idx_main_v3 i) = ix1 (i 2) :=
    funext fun a => by match a with | ⟨0, _⟩ => rfl
  rw [val_main_v4_apply, val_main_v1_apply, val_main_v3_apply, val_main_v2_apply, eb]
  simp only [val_main_v0_apply, val_main_call0_v4_apply, val_main_call0_v2_apply, val_main_call0_v0_apply,
    val_main_call0_v3_apply, val_main_call0_v1_apply, etok, ew]
  rfl

end Cert.ReferenceIdeal.RefEmbed

end
-- ==== Proof.lean ====
/-
  A linear layer on one-hot rows, computed by a TPU kernel and by a host program: the two are equal over the
  extended reals.

  Both programs take a token array `x` (32 × 8192 words), a weight `W` (256 × 256, `[out, in]`) and a bias (256), and
  return, for every token `(b, s)` and output `o`,
      Σ_v hot (x (b, s)) v · W (o, v) + bias o          (`Cert.OneHotLinear.embed`),
  where `hot x v` is 1 when the word `x` is the word `v` and 0 otherwise.

  The kernel works on 64 blocks of 128 tokens per sequence. In each it builds the one-hot rows by comparing the tokens
  with an iota, multiplies the 4096 × 256 one-hot matrix by the transposed weight (transposed, and its float format
  changed, by the host before the launch; at the ideal values the change of format is the identity) into a zero
  accumulator, and adds the bias (Proof/KernelBody.lean: the stored value at an index; Proof/KernelArray.lean: the
  blocks as parts of the arrays, the cover, the run). The reference builds the whole one-hot array, contracts it with
  the weight's second axis and adds the bias (Proof/ReferenceEmbed.lean). Both sums run over `v` in the same order with
  the same factors in the same order, so the two results are the same expression: no law of the extended reals is
  used, and the precondition (finite weight and bias) is never opened.

  The three frames are the generated ones (the reference's is its generated run with the result dropped); the kernel's
  idealization rewrote nothing, so `preserves` is trivial.
-/
import proofs.«150995_j57183194579644_1_alg».proof.Defs
import proofs.«150995_j57183194579644_1_alg».proof.Proof.Gen.Kernel
import proofs.«150995_j57183194579644_1_alg».proof.Proof.Gen.Kernel.Skeleton
import proofs.«150995_j57183194579644_1_alg».proof.Proof.Gen.Kernel.Launch
import proofs.«150995_j57183194579644_1_alg».proof.Proof.Gen.Kernel.Points
import proofs.«150995_j57183194579644_1_alg».proof.Proof.Gen.Kernel.Frame
import proofs.«150995_j57183194579644_1_alg».proof.Proof.Gen.KernelIdeal
import proofs.«150995_j57183194579644_1_alg».proof.Proof.Gen.KernelIdeal.Skeleton
import proofs.«150995_j57183194579644_1_alg».proof.Proof.Gen.KernelIdeal.Launch
import proofs.«150995_j57183194579644_1_alg».proof.Proof.Gen.KernelIdeal.Points
import proofs.«150995_j57183194579644_1_alg».proof.Proof.Gen.KernelIdeal.Frame
import proofs.«150995_j57183194579644_1_alg».proof.Proof.Gen.ReferenceIdeal
import proofs.«150995_j57183194579644_1_alg».proof.Proof.Gen.Pre_finite_inputs
import proofs.«150995_j57183194579644_1_alg».proof.Proof.Gen.KernelIdeal.Value
import proofs.«150995_j57183194579644_1_alg».proof.Proof.Gen.ReferenceIdeal.Run
import proofs.«150995_j57183194579644_1_alg».proof.Proof.Gen.ReferenceIdeal.Read
import proofs.«150995_j57183194579644_1_alg».proof.Proof.OneHotLinear
import proofs.«150995_j57183194579644_1_alg».proof.Proof.KernelArray
import proofs.«150995_j57183194579644_1_alg».proof.Proof.ReferenceEmbed
import Idealize.ShloMosaic.Adequacy
import Idealize.ShloMosaic.Init

noncomputable section

namespace Cert.Proof

open Idealize.ShloMosaic Idealize.ShloMosaic.TcCoe Idealize.SL.Sem

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `embed` of its arguments and the reference's at
    `embed` of its own: the same array. -/
theorem algebraic : Cert.algebraic_KernelIdeal_ReferenceIdeal := by
  intro m ρ m' ρ' _ hagree
  refine ⟨fun c => Cert.OneHotLinear.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefEmbed.val_eq_embed,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
